-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x64x64 : Shape := ⟨4, ![16, 768, 64, 64]⟩
abbrev S150x768 : Shape := ⟨2, ![150, 768]⟩
abbrev S_ : Shape := ⟨0, ![]⟩

class Facts : Prop where
  bcast_S_S16x768x64x64 : S_.BroadcastsInDim S16x768x64x64 (![] : Fin 0 → Fin S16x768x64x64.rank)
  reducesTo_S16x768x64x64_S_d0_1_2_3 : S16x768x64x64.ReducesTo [0, 1, 2, 3] S_
  h_S_ : 0 < S_.numel
  bcast_S_S150x768 : S_.BroadcastsInDim S150x768 (![] : Fin 0 → Fin S150x768.rank)
  reducesTo_S150x768_S_d0_1 : S150x768.ReducesTo [0, 1] S_

variable [Facts]

def fn {F : FTy → Type} [FloatOps F] (main_arg0 : FVec F S16x768x64x64 .f32) (main_arg1 : FVec F S150x768 .f32) : IVec S_ 1 :=
  let main_v0 : FVec F S16x768x64x64 .f32 := Host.absf main_arg0
  let main_cst : FVec F S_ .f32 := constant S_ .f32 0x7F800000#32
  let main_v1 : FVec F S16x768x64x64 .f32 := broadcastInDim S16x768x64x64 ![] bcast_S_S16x768x64x64 main_cst
  let main_v2 : IVec S16x768x64x64 1 := cmpf .olt main_v0 main_v1
  let main_c : IVec S_ 1 := constantI S_ 1 1#1
  let main_v3 : IVec S_ 1 := (fun x v => Host.reduce IntOp.andi x v reducesTo_S16x768x64x64_S_d0_1_2_3 h_S_) main_v2 main_c
  let main_v4 : FVec F S150x768 .f32 := Host.absf main_arg1
  let main_cst_0 : FVec F S_ .f32 := constant S_ .f32 0x7F800000#32
  let main_v5 : FVec F S150x768 .f32 := broadcastInDim S150x768 ![] bcast_S_S150x768 main_cst_0
  let main_v6 : IVec S150x768 1 := cmpf .olt main_v4 main_v5
  let main_c_1 : IVec S_ 1 := constantI S_ 1 1#1
  let main_v7 : IVec S_ 1 := (fun x v => Host.reduce IntOp.andi x v reducesTo_S150x768_S_d0_1 h_S_) main_v6 main_c_1
  let main_v8 : IVec S_ 1 := andi main_v3 main_v7
  main_v8
-- ==== Kernel.lean ====
abbrev S16x768x64x64 : Shape := ⟨4, ![16, 768, 64, 64]⟩
abbrev S150x768 : Shape := ⟨2, ![150, 768]⟩
abbrev S_ : Shape := ⟨0, ![]⟩
abbrev S150 : Shape := ⟨1, ![150]⟩
abbrev S150x1 : Shape := ⟨2, ![150, 1]⟩
abbrev S768 : Shape := ⟨1, ![768]⟩
abbrev S1x768 : Shape := ⟨2, ![1, 768]⟩
abbrev S1x256x64x64 : Shape := ⟨4, ![1, 256, 64, 64]⟩
abbrev S1x256 : Shape := ⟨2, ![1, 256]⟩
abbrev S1x256x1x1 : Shape := ⟨4, ![1, 256, 1, 1]⟩

abbrev nBuf : Space → Nat
  | .hbm => 20
  | .vmem => 6
  | .smem => 0
  | _ => 0

abbrev bufTy : (tb : Table) → Fin (tcTables nBuf tb) → BufTy
  | .hbm, ⟨0, _⟩ => ⟨S16x768x64x64, .f32⟩
  | .hbm, ⟨1, _⟩ => ⟨S150x768, .f32⟩
  | .hbm, ⟨2, _⟩ => ⟨S_, .f32⟩
  | .hbm, ⟨3, _⟩ => ⟨S150, .f32⟩
  | .hbm, ⟨4, _⟩ => ⟨S_, .f32⟩
  | .hbm, ⟨5, _⟩ => ⟨S150, .f32⟩
  | .hbm, ⟨6, _⟩ => ⟨S150, .f32⟩
  | .hbm, ⟨7, _⟩ => ⟨S150x1, .f32⟩
  | .hbm, ⟨8, _⟩ => ⟨S150x768, .f32⟩
  | .hbm, ⟨9, _⟩ => ⟨S150x768, .f32⟩
  | .hbm, ⟨10, _⟩ => ⟨S150x768, .f32⟩
  | .hbm, ⟨11, _⟩ => ⟨S_, .f32⟩
  | .hbm, ⟨12, _⟩ => ⟨S150, .f32⟩
  | .hbm, ⟨13, _⟩ => ⟨S150x1, .f32⟩
  | .hbm, ⟨14, _⟩ => ⟨S150x768, .f32⟩
  | .hbm, ⟨15, _⟩ => ⟨S150x768, .f32⟩
  | .hbm, ⟨16, _⟩ => ⟨S_, .f32⟩
  | .hbm, ⟨17, _⟩ => ⟨S768, .f32⟩
  | .hbm, ⟨18, _⟩ => ⟨S1x768, .f32⟩
  | .hbm, ⟨19, _⟩ => ⟨S16x768x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S1x256, .f32⟩
  | .local _ .vmem, ⟨3, _⟩ => ⟨S1x256, .f32⟩
  | .local _ .vmem, ⟨4, _⟩ => ⟨S1x256x64x64, .f32⟩
  | .local _ .vmem, ⟨5, _⟩ => ⟨S1x256x64x64, .f32⟩
  | _, _ => ⟨S16x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S150x768_S150_d1 : S150x768.ReducesTo [1] S150
  h_S_ : 0 < S_.numel
  bcast_S_S150 : S_.BroadcastsInDim S150 (![] : Fin 0 → Fin S150.rank)
  bcast_S150_S150x1_0 : S150.BroadcastsInDim S150x1 (![0] : Fin 1 → Fin S150x1.rank)
  bcast_S150x1_S150x768_0_1 : S150x1.BroadcastsInDim S150x768 (![0, 1] : Fin 2 → Fin S150x768.rank)
  reducesTo_S150x768_S768_d0 : S150x768.ReducesTo [0] S768
  shapeCasts_S768_S1x768 : S768.ShapeCasts S1x768
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x256x1x1 : S1x256.ShapeCasts S1x256x1x1
  inb_S1x256x64x64_S1x256x64x64_0_0_0_0 : ∀ a, (![0, 0, 0, 0] : Fin 4 → Nat) a + S1x256x64x64.size a ≤ S1x256x64x64.size a
  h_S1x256x64x64 : 0 < S1x256x64x64.numel
  broadcasts_S1x256x1x1_S1x256x64x64 : S1x256x1x1.Broadcasts S1x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S16x768x64x64.size a
  hwx0_0 : ∀ i : grid0.Coords, EltTy.bits .f32 = 32 ∨ (Rect.block (s := S16x768x64x64) S1x256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x768.size a
  hwx0_1 : ∀ i : grid0.Coords, EltTy.bits .f32 = 32 ∨ (Rect.block (s := S1x768) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64x64.size a ≤ S16x768x64x64.size a
  hwx0_2 : ∀ i : grid0.Coords, EltTy.bits .f32 = 32 ∨ (Rect.block (s := S16x768x64x64) S1x256x64x64.size (cc0_transform_2 i) (hinb0_2 i)).WholeWords (EltTy.packing .f32)

variable [Facts₀]

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x768x64x64 : Shape := ⟨4, ![16, 768, 64, 64]⟩
abbrev S150x768 : Shape := ⟨2, ![150, 768]⟩
abbrev S_ : Shape := ⟨0, ![]⟩
abbrev S150 : Shape := ⟨1, ![150]⟩
abbrev S150x1 : Shape := ⟨2, ![150, 1]⟩
abbrev S768 : Shape := ⟨1, ![768]⟩
abbrev S1x768x1x1 : Shape := ⟨4, ![1, 768, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S16x768x64x64, .f32⟩
  | .hbm, ⟨1, _⟩ => ⟨S150x768, .f32⟩
  | .hbm, ⟨2, _⟩ => ⟨S_, .f32⟩
  | .hbm, ⟨3, _⟩ => ⟨S150, .f32⟩
  | .hbm, ⟨4, _⟩ => ⟨S_, .f32⟩
  | .hbm, ⟨5, _⟩ => ⟨S150, .f32⟩
  | .hbm, ⟨6, _⟩ => ⟨S150, .f32⟩
  | .hbm, ⟨7, _⟩ => ⟨S150x1, .f32⟩
  | .hbm, ⟨8, _⟩ => ⟨S150x768, .f32⟩
  | .hbm, ⟨9, _⟩ => ⟨S150x768, .f32⟩
  | .hbm, ⟨10, _⟩ => ⟨S150x768, .f32⟩
  | .hbm, ⟨11, _⟩ => ⟨S_, .f32⟩
  | .hbm, ⟨12, _⟩ => ⟨S150, .f32⟩
  | .hbm, ⟨13, _⟩ => ⟨S150x1, .f32⟩
  | .hbm, ⟨14, _⟩ => ⟨S150x768, .f32⟩
  | .hbm, ⟨15, _⟩ => ⟨S150x768, .f32⟩
  | .hbm, ⟨16, _⟩ => ⟨S_, .f32⟩
  | .hbm, ⟨17, _⟩ => ⟨S768, .f32⟩
  | .hbm, ⟨18, _⟩ => ⟨S1x768x1x1, .f32⟩
  | .hbm, ⟨19, _⟩ => ⟨S16x768x64x64, .f32⟩
  | .hbm, ⟨20, _⟩ => ⟨S16x768x64x64, .f32⟩
  | _, _ => ⟨S16x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S150x768_S150_d1 : S150x768.ReducesTo [1] S150
  h_S_ : 0 < S_.numel
  bcast_S_S150 : S_.BroadcastsInDim S150 (![] : Fin 0 → Fin S150.rank)
  bcast_S150_S150x1_0 : S150.BroadcastsInDim S150x1 (![0] : Fin 1 → Fin S150x1.rank)
  bcast_S150x1_S150x768_0_1 : S150x1.BroadcastsInDim S150x768 (![0, 1] : Fin 2 → Fin S150x768.rank)
  reducesTo_S150x768_S768_d0 : S150x768.ReducesTo [0] S768
  bcast_S768_S1x768x1x1_1 : S768.BroadcastsInDim S1x768x1x1 (![1] : Fin 1 → Fin S1x768x1x1.rank)
  bcast_S1x768x1x1_S16x768x64x64_0_1_2_3 : S1x768x1x1.BroadcastsInDim S16x768x64x64 (![0, 1, 2, 3] : Fin 4 → Fin S16x768x64x64.rank)

variable [Facts₀]

class Facts : Prop extends Facts₀ where

variable [Facts]
-- ==== Proof.ChannelScale.lean ====
/-
  Scaling a batch of images channel by channel.

  The batch is `x[b, c, h, w]` over 16 images of 768 channels of 64 × 64 entries, and `s[c]` holds one factor per
  channel. Both programs of this certificate end with the array

      out[b, c, h, w] = x[b, c, h, w] · s[c],

  the factor on the right of the product. Nothing about the numbers is used: the statement holds for any float
  model, since the only work is to say which entry of `s` meets which entry of `x`.
-/
import Idealize.ShloMosaic.PureOps.Ideal
import Idealize.ShloMosaic.Lib.ValueIdx

noncomputable section

namespace Cert.ChannelScale

open Idealize.ShloMosaic

variable {F : FTy → Type} [FloatOps F]

/-- The batch: 16 images, 768 channels, 64 rows, 64 columns. -/
abbrev Img : Shape := ⟨4, ![16, 768, 64, 64]⟩
/-- One entry per channel. -/
abbrev Chan : Shape := ⟨1, ![768]⟩

/-- The channel an entry of the batch lies in: its second coordinate. -/
def chanOf (i : Img.Idx) : Chan.Idx := fun a => match a with
  | ⟨0, _⟩ => ⟨(i 1).val, (i 1).isLt⟩

/-- Every entry of the batch times its channel's factor. -/
def scaleChannels (x : FVec F Img .f32) (s : FVec F Chan .f32) : FVec F Img .f32 :=
  fun i => FloatOps.mulf (x i) (s (chanOf i))

theorem scaleChannels_apply (x : FVec F Img .f32) (s : FVec F Chan .f32) (i : Img.Idx) :
    scaleChannels x s i = FloatOps.mulf (x i) (s (chanOf i)) := rfl

/-- The channel of an entry, as a number. -/
theorem chanOf_val (i : Img.Idx) : (chanOf i 0).val = (i 1).val := rfl

end Cert.ChannelScale

end
-- ==== Proof.RefScale.lean ====
/-
  The reference's result is the channel-scaled batch.

  The reference ends with three operations on the vector `s` of per-channel factors it has computed from its second
  argument: `s` is laid along the channel axis of a [1, 768, 1, 1] array, that array is repeated over images, rows and
  columns, and the batch is multiplied by it entry by entry. Read at an entry `(b, c, h, w)` the two repetitions pick
  `s[c]`, so the result is `x[b, c, h, w] · s[c]`. How `s` itself is computed is never opened here.
-/
import proofs.«100200_j89970974916930_1_alg».proof.Proof.Gen.ReferenceIdeal.Read
import proofs.«100200_j89970974916930_1_alg».proof.Proof.ChannelScale

noncomputable section

namespace Cert.ChannelScale.Ref

open Idealize.ShloMosaic Cert.ReferenceIdeal Cert.ReferenceIdeal.Read Cert.ChannelScale

variable {F : FTy → Type} [FloatOps F]

/-- Through the two repetitions, entry `i` of the batch reads the factor vector at `i`'s channel. -/
theorem factor_index (i : S16x768x64x64.Idx) : idx_main_v12 (idx_main_v13 i) = chanOf i :=
  funext fun a => by match a with | ⟨0, _⟩ => rfl

/-- The reference's last stage is the batch scaled channel by channel with the factor vector of its eleventh stage. -/
theorem result_eq (x0 : (⟨S16x768x64x64, .f32⟩ : BufTy).Contents (Elt F)) (x1 : (⟨S150x768, .f32⟩ : BufTy).Contents (Elt F)) :
    val_main_v14 (F := F) x0 x1 = scaleChannels x0 (val_main_v11 (F := F) x1) := by
  funext i
  rw [val_main_v14_apply, val_main_v13_apply, val_main_v12_apply, factor_index, scaleChannels_apply]

end Cert.ChannelScale.Ref

end
-- ==== Proof.KernelFactors.lean ====
/-
  The vector of per-channel factors, as the kernel's host prefix computes it, and the row the region reads it from.

  From its second argument `a` (150 rows of 768) the kernel computes, on the host, one factor per channel: each row of
  `a` is shifted by its maximum and exponentiated, divided by its row sum (a softmax along the row), and the 150 rows are
  summed column by column. That vector of 768 is then written out as one [1, 768] row, the second operand of the region.
-/
import proofs.«100200_j89970974916930_1_alg».proof.Proof.Gen.KernelIdeal.Value
import Idealize.ShloMosaic.Lib.StableHlo.Run

noncomputable section

namespace Cert.ChannelScale.Kernel

open Cert.KernelIdeal Cert.KernelIdeal.Gen Cert.KernelIdeal.Value Idealize.ShloMosaic Idealize.ShloMosaic.TcCoe Idealize.SL.Sem
open Idealize.ShloMosaic.StableHlo
open Idealize.ShloMosaic.Pipeline (Dat)

variable {F : FTy → Type} [FloatOps F]

/-! ## The factor vector, stage by stage -/

/-- Each row's maximum (taken against -∞ once more, as the host does). -/
def rowMax (a : FVec F S150x768 .f32) : FVec F S150 .f32 :=
  maximumf (broadcastInDim S150 ![] bcast_S_S150 (constant S_ .f32 0xFF800000#32))
    (Host.reduce FloatOps.maximumf a (constant S_ .f32 0xFF800000#32) reducesTo_S150x768_S150_d1 h_S_)

/-- The entries shifted by their row's maximum, exponentiated. -/
def expShifted (a : FVec F S150x768 .f32) : FVec F S150x768 .f32 :=
  Host.exp (subf a (broadcastInDim S150x768 ![0, 1] bcast_S150x1_S150x768_0_1 (broadcastInDim S150x1 ![0] bcast_S150_S150x1_0 (rowMax a))))

/-- Each row's sum of those exponentials. -/
def rowSum (a : FVec F S150x768 .f32) : FVec F S150 .f32 :=
  Host.reduceAdd (expShifted a) (constant S_ .f32 0x00000000#32) reducesTo_S150x768_S150_d1 h_S_

/-- The softmax along each row. -/
def softmaxRows (a : FVec F S150x768 .f32) : FVec F S150x768 .f32 :=
  Host.divf (expShifted a) (broadcastInDim S150x768 ![0, 1] bcast_S150x1_S150x768_0_1 (broadcastInDim S150x1 ![0] bcast_S150_S150x1_0 (rowSum a)))

/-- The factor of each channel: the softmaxed rows summed column by column. -/
def factors (a : FVec F S150x768 .f32) : FVec F S768 .f32 :=
  Host.reduceAdd (softmaxRows a) (constant S_ .f32 0x00000000#32) reducesTo_S150x768_S768_d0 h_S_

variable (m : (ℓ : Loc nD τ sig) → Buf (Elt F) ℓ) (ρ : Dev nD → PrngReg)

/-! ## The factor row -/

set_option maxHeartbeats 2000000 in
/-- The row of factors the region reads is the factor vector of the second argument, written out as one row of 768. -/
theorem factorRow_eq (c : Dev nD) :
    (V m c main_v12 : S1x768.Idx → Elt F .f32)
      = shapeCast S1x768 (factors (m ((c : Thread nD τ).loc main_arg1))) shapeCasts_S768_S1x768 := by
  dsimp only [Gen.V, Gen.hostOps0]
  after_results
  rfl

end Cert.ChannelScale.Kernel

end
-- ==== Proof.KernelBlocks.lean ====
/-
  The kernel's result is the channel-scaled batch.

  The region walks a 16 × 3 grid. At point (b, q) it is handed image `b`'s channels 256·q … 256·q + 255 (a
  [1, 256, 64, 64] block of the batch) and entries 256·q … 256·q + 255 of the factor row (a [1, 256] block of it). The
  body multiplies every entry of the image block by the factor block's entry for its channel and the product is written
  back to the same place in the output. So the block that holds an array index `i` was written, at `i`, with
  `x i · s (channel of i)`, where `s` is the factor vector; the 48 blocks tile the output, so that is the whole array.
-/
import proofs.«100200_j89970974916930_1_alg».proof.Proof.KernelFactors
import proofs.«100200_j89970974916930_1_alg».proof.Proof.ChannelScale

noncomputable section

namespace Cert.ChannelScale.Kernel

open Cert.KernelIdeal Cert.KernelIdeal.Gen Cert.KernelIdeal.Value Idealize.ShloMosaic Idealize.ShloMosaic.TcCoe Idealize.SL.Sem
open Idealize.ShloMosaic.Pipeline (Dat)
open Cert.ChannelScale

variable {F : FTy → Type} [FloatOps F]
variable (m : (ℓ : Loc nD τ sig) → Buf (Elt F) ℓ) (ρ : Dev nD → PrngReg)

/-! ## One block -/

theorem zero4 : (![0, 0, 0, 0] : Fin 4 → Nat) = fun _ => 0 := funext fun a => by fin_cases a <;> rfl
theorem zero2 : (![0, 0] : Fin 2 → Nat) = fun _ => 0 := funext fun a => by fin_cases a <;> rfl

/-- What the body leaves in the output block, from an image block `P0` and a factor block `P1`: the entry at `y` is
    `P0`'s entry at `y` times `P1`'s entry at `y`'s channel (the body loads both blocks whole). -/
theorem block_apply (P0 : Vec F S1x256x64x64 .f32) (P1 : Vec F S1x256 .f32) (y : S1x256x64x64.Idx) :
    out0_2 P0 P1 y = FloatOps.mulf (P0 (ix2_0 y)) (P1 (ix2_1 y)) := by
  unfold out0_2
  rw [View.ld_unit_zero (S := S1x256) zero2, View.ld_unit_zero (S := S1x256x64x64) zero4]
  exact canon2_eq P0 P1 y

/-- Where the three windows sit at a grid point: the image block and the output block are the same block of their
    arrays, the factor block is in the row's only row, at the output block's channel-block. -/
theorem idx_facts : ∀ t : Fin cfg0.N,
    win0_0.index t (0 : Fin 4) = win0_2.index t (0 : Fin 4)
    ∧ win0_0.index t (1 : Fin 4) = win0_2.index t (1 : Fin 4)
    ∧ win0_0.index t (2 : Fin 4) = win0_2.index t (2 : Fin 4)
    ∧ win0_0.index t (3 : Fin 4) = win0_2.index t (3 : Fin 4)
    ∧ win0_1.index t (0 : Fin 2) = 0
    ∧ win0_1.index t (1 : Fin 2) = win0_2.index t (1 : Fin 4) :=
  (by decide +kernel : ∀ t : Fin grid0.N, _)

/-- What point `t` writes back is block `t` of the channel-scaled batch: the batch as the region finds it, scaled by
    the factor vector of the second argument. -/
theorem flushed_eq (c : Dev nD) (t : Fin cfg0.N) :
    (dats m 0 c).flushed 2 t = ((cfg0.win 2).blk t).view.read (Elt F)
      (scaleChannels (V m c main_arg0) (factors (m ((c : Thread nD τ).loc main_arg1)))) := by
  rw [Value.flushed2]
  obtain ⟨e0, e1, e2, e3, e4, e5⟩ := idx_facts t
  funext j
  have hj0 : (j 0).val < 1 := (j 0).isLt
  have hj1 : (j 1).val < 256 := (j 1).isLt
  show out0_2 (iblk m c 0 t) (iblk m c 1 t) j
    = scaleChannels (V m c main_arg0) (factors (m ((c : Thread nD τ).loc main_arg1))) (((cfg0.win 2).blk t).view.emb j)
  refine (block_apply (iblk m c 0 t) (iblk m c 1 t) j).trans ?_
  rw [scaleChannels_apply]
  -- the image block's entry is the batch's entry at the output block's place
  have h0 : iblk m c 0 t (ix2_0 j) = V m c main_arg0 (((cfg0.win 2).blk t).view.emb j) := by
    show V m c main_arg0 (((cfg0.win 0).blk t).view.emb (ix2_0 j)) = _
    congr 1; funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 256 + 1 * (j 1).val = win0_2.index t (1 : Fin 4) * 256 + 1 * (j 1).val; omega
    | ⟨2, _⟩ => show win0_0.index t (2 : Fin 4) * 64 + 1 * (j 2).val = win0_2.index t (2 : Fin 4) * 64 + 1 * (j 2).val; omega
    | ⟨3, _⟩ => show win0_0.index t (3 : Fin 4) * 64 + 1 * (j 3).val = win0_2.index t (3 : Fin 4) * 64 + 1 * (j 3).val; omega
  -- the factor block's entry is the factor of the channel the output entry lies in
  have h1 : iblk m c 1 t (ix2_1 j)
      = factors (m ((c : Thread nD τ).loc main_arg1)) (chanOf (((cfg0.win 2).blk t).view.emb j)) := by
    show V m c main_v12 (((cfg0.win 1).blk t).view.emb (ix2_1 j)) = _
    rw [factorRow_eq]
    refine shapeCast_apply _ _ _ (chanOf (((cfg0.win 2).blk t).view.emb j)) ?_
    rw [Shape.rowMajor_val_one, Shape.rowMajor_val_two]
    show win0_2.index t (1 : Fin 4) * 256 + 1 * (j 1).val
      = (win0_1.index t (0 : Fin 2) * 1 + 1 * 0) * 768 + (win0_1.index t (1 : Fin 2) * 256 + 1 * (j 1).val)
    omega
  rw [h0, h1]

/-! ## The blocks tile the output -/

/-- An index of the output is in point `t`'s block iff each coordinate is in the block's range on its axis. -/
theorem mem_blk (t : Fin cfg0.N) (i : S16x768x64x64.Idx) :
    i ∈ ((cfg0.win 2).blk t).view.set ↔ ∀ a : Fin 4, win0_2.index t a * S1x256x64x64.size a ≤ (i a).val
      ∧ (i a).val < win0_2.index t a * S1x256x64x64.size a + S1x256x64x64.size a := by
  show i ∈ ((View.whole main_v13).slice (win0_2.rect t)).set ↔ _
  rw [View.set_slice_whole, Rect.mem_set_unit]
  exact Iff.rfl

/-- Every image and every channel-block has its grid point. -/
theorem idx_onto : ∀ (b : Fin 16) (q : Fin 3), ∃ t : Fin cfg0.N, win0_2.index t = ![b.val, q.val, 0, 0] :=
  (by decide +kernel : ∀ (b : Fin 16) (q : Fin 3), ∃ t : Fin grid0.N, win0_2.index t = ![b.val, q.val, 0, 0])

/-- Every index of the output lies in the block of the point for its image and its channel's block of 256. -/
theorem cover (i : S16x768x64x64.Idx) :
    ∃ t : Fin cfg0.N, (cfg0.win 2).flush t = true ∧ i ∈ ((cfg0.win 2).blk t).view.set := by
  have hi0 : (i 0).val < 16 := (i 0).isLt
  have hi1 : (i 1).val < 768 := (i 1).isLt
  have hi2 : (i 2).val < 64 := (i 2).isLt
  have hi3 : (i 3).val < 64 := (i 3).isLt
  obtain ⟨t, ht⟩ := idx_onto ⟨(i 0).val, hi0⟩ ⟨(i 1).val / 256, by omega⟩
  have q0 : win0_2.index t (0 : Fin 4) = (i 0).val := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-! ## The output array, and the run -/

/-- After the region the output array is the first argument scaled channel by channel with the second argument's
    factor vector. -/
theorem final (c : Dev nD) : (dats m 0 c).arrAt 2 cfg0.N
    = scaleChannels (m ((c : Thread nD τ).loc main_arg0)) (factors (m ((c : Thread nD τ).loc main_arg1))) := by
  rw [← V_main_arg0 m c]
  exact (dats m 0 c).arrAt_eq_of_cover 2 _ (fun t _ => flushed_eq m c t) cover

/-- Every weakly fair execution of the kernel's program terminates with the result array at the channel-scaled first
    argument and both arguments as launched. -/
theorem run : θ_run defs (onTc (τ := τ) (main (F := F))) ⟨m, fun _ => 0, ρ⟩ fun r => ∀ c : Dev nD,
      r.2.mem ((c : Thread nD τ).loc main_v13)
        = scaleChannels (m ((c : Thread nD τ).loc main_arg0)) (factors (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ChannelScale.Kernel

end
-- ==== Proof.SameFactors.lean ====
/-
  The two programs compute the same factor vector.

  Up to the factor vector the kernel's host prefix and the reference are the same sequence of operations on the second
  argument — the same row maximum against -∞, the same shift and exponential, the same row sum from zero, the same
  quotient, the same column sum from zero — so the kernel's factor vector and the reference's eleventh stage are one
  function of that argument. Nothing is computed: the two terms are compared operation by operation.
-/
import proofs.«100200_j89970974916930_1_alg».proof.Proof.KernelFactors
import proofs.«100200_j89970974916930_1_alg».proof.Proof.Gen.ReferenceIdeal.Read

noncomputable section

namespace Cert.ChannelScale

open Idealize.ShloMosaic

variable {F : FTy → Type} [FloatOps F]

/-- The kernel's factor vector is the reference's eleventh stage. -/
theorem factors_eq (a : FVec F Cert.KernelIdeal.S150x768 .f32) :
    Kernel.factors a = Cert.ReferenceIdeal.Read.val_main_v11 (F := F) a := rfl

end Cert.ChannelScale

end
-- ==== Proof.lean ====
/-
  A batch of images scaled channel by channel: the kernel against its reference.

  Both programs take a batch `x` (16 images, 768 channels, 64 × 64) and an array `a` of 150 rows of 768, compute from
  `a` one factor per channel `s[c]` (the rows of `a` softmaxed along the row, then summed column by column), and
  return `x[b, c, h, w] · s[c]`.

  * The reference does it with whole-array operations: `s` is repeated over images, rows and columns and the batch is
    multiplied by the result. Read at an entry this is `x i · s (channel of i)` (Proof/RefScale.lean).
  * The kernel computes `s` by the same host operations, writes it out as one row, and multiplies block by block over a
    16 × 3 grid, each block 256 channels of one image; the blocks tile the output, and each is the same product read
    through the block (Proof/KernelFactors.lean, Proof/KernelBlocks.lean).
  * The two factor vectors are the same sequence of operations on `a` (Proof/SameFactors.lean).

  So both results are the one array `scaleChannels x (factors a)` (Proof/ChannelScale.lean), whatever the entries of `x`
  and `a` are: no law of arithmetic is used, only which entry meets which, and the precondition is never opened. The ideal
  pass rewrote nothing, so the idealized kernel is the kernel's own text and `preserves` has nothing to state.
-/
import proofs.«100200_j89970974916930_1_alg».proof.Defs
import proofs.«100200_j89970974916930_1_alg».proof.Proof.Gen.Kernel
import proofs.«100200_j89970974916930_1_alg».proof.Proof.Gen.Kernel.Skeleton
import proofs.«100200_j89970974916930_1_alg».proof.Proof.Gen.Kernel.Launch
import proofs.«100200_j89970974916930_1_alg».proof.Proof.Gen.Kernel.Points
import proofs.«100200_j89970974916930_1_alg».proof.Proof.Gen.Kernel.Frame
import proofs.«100200_j89970974916930_1_alg».proof.Proof.Gen.KernelIdeal
import proofs.«100200_j89970974916930_1_alg».proof.Proof.Gen.KernelIdeal.Skeleton
import proofs.«100200_j89970974916930_1_alg».proof.Proof.Gen.KernelIdeal.Launch
import proofs.«100200_j89970974916930_1_alg».proof.Proof.Gen.KernelIdeal.Points
import proofs.«100200_j89970974916930_1_alg».proof.Proof.Gen.KernelIdeal.Frame
import proofs.«100200_j89970974916930_1_alg».proof.Proof.Gen.ReferenceIdeal
import proofs.«100200_j89970974916930_1_alg».proof.Proof.Gen.Pre_finite_inputs
import proofs.«100200_j89970974916930_1_alg».proof.Proof.Gen.KernelIdeal.Value
import proofs.«100200_j89970974916930_1_alg».proof.Proof.Gen.ReferenceIdeal.Run
import proofs.«100200_j89970974916930_1_alg».proof.Proof.Gen.ReferenceIdeal.Read
import proofs.«100200_j89970974916930_1_alg».proof.Proof.ChannelScale
import proofs.«100200_j89970974916930_1_alg».proof.Proof.RefScale
import proofs.«100200_j89970974916930_1_alg».proof.Proof.KernelFactors
import proofs.«100200_j89970974916930_1_alg».proof.Proof.KernelBlocks
import proofs.«100200_j89970974916930_1_alg».proof.Proof.SameFactors
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel ends at the channel-scaled batch (the blocks of its region tile it) and the
    reference at its last stage, which is the same array: the reference's repetitions pick the channel's factor, and its
    factor vector is the kernel's. -/
theorem algebraic : Cert.algebraic_KernelIdeal_ReferenceIdeal := by
  intro m ρ m' ρ' _ hagree
  refine ⟨_, Cert.ChannelScale.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ChannelScale.Ref.result_eq, (hagree c).1, (hagree c).2,
    ← Cert.ChannelScale.factors_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
